-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S128x256 .f32) (main_arg5 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x128 .f32) (main_arg3 : FVec F S128 .f32) (main_arg4 : FVec F S128x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S1x128 : Shape := ⟨2, ![1, 128]⟩
abbrev S1x256 : Shape := ⟨2, ![1, 256]⟩
abbrev S10000x128 : Shape := ⟨2, ![10000, 128]⟩
abbrev S400x10000 : Shape := ⟨2, ![400, 10000]⟩
abbrev S400x256 : Shape := ⟨2, ![400, 256]⟩
abbrev S400x128 : Shape := ⟨2, ![400, 128]⟩

abbrev nBuf : Space → Nat
  | .hbm => 11
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S1x128, .f32⟩
  | .hbm, ⟨7, _⟩ => ⟨S1x256, .f32⟩
  | .hbm, ⟨8, _⟩ => ⟨S10000x128, .f32⟩
  | .hbm, ⟨9, _⟩ => ⟨S10000x256, .f32⟩
  | .hbm, ⟨10, _⟩ => ⟨S10000x256, .f32⟩
  | .local _ .vmem, ⟨0, _⟩ => ⟨S10000x256, .f32⟩
  | .local _ .vmem, ⟨1, _⟩ => ⟨S256x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x256, .f32⟩
  | .local _ .vmem, ⟨8, _⟩ => ⟨S400x256, .f32⟩
  | .local _ .vmem, ⟨9, _⟩ => ⟨S400x256, .f32⟩
  | .local _ .vmem, ⟨10, _⟩ => ⟨S400x10000, .f32⟩
  | .local _ .vmem, ⟨11, _⟩ => ⟨S400x10000, .f32⟩
  | .local _ .vmem, ⟨12, _⟩ => ⟨S10000x256, .f32⟩
  | .local _ .vmem, ⟨13, _⟩ => ⟨S1x256, .f32⟩
  | .local _ .vmem, ⟨14, _⟩ => ⟨S400x256, .f32⟩
  | .local _ .vmem, ⟨15, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x256_S128x256_0_0 : ∀ a, (![0, 0] : Fin 2 → Nat) a + S128x256.size a ≤ S128x256.size a
  h_S128x256 : 0 < S128x256.numel
  inb_S400x256_S400x256_0_0 : ∀ a, (![0, 0] : Fin 2 → Nat) a + S400x256.size a ≤ S400x256.size a
  h_S400x256 : 0 < S400x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  dot_S10000x256_S256x128_S10000x128_1_0_0_1_n_n_wf : DotDims.WF S10000x256 S256x128 S10000x128 [1] [0] [0] [1] [] []
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x10000_S10000x256_S400x256_1_0_0_1_n_n_wf : DotDims.WF S400x10000 S10000x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .f32 = 32 ∨ (Rect.block (s := S10000x256) S400x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x256.size a ≤ S10000x256.size a
  hwx2_3 : ∀ i : grid2.Coords, EltTy.bits .f32 = 32 ∨ (Rect.block (s := S10000x256) S400x256.size (cc2_transform_3 i) (hinb2_3 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S10000x128 : Shape := ⟨2, ![10000, 128]⟩
abbrev S1x128 : Shape := ⟨2, ![1, 128]⟩
abbrev S_ : Shape := ⟨0, ![]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x256, .f32⟩
  | .hbm, ⟨15, _⟩ => ⟨S10000x256, .f32⟩
  | .hbm, ⟨16, _⟩ => ⟨S1x256, .f32⟩
  | .hbm, ⟨17, _⟩ => ⟨S10000x256, .f32⟩
  | .hbm, ⟨18, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.GcnSpec.lean ====
/-
  The two-layer graph convolution, as one function of its six arrays over the extended reals.

      support₁ = x · W₁                         (10000 × 256 by 256 × 128)
      hidden   = max (adj · support₁ + b₁, z)   (10000 × 10000 by 10000 × 128; the bias along each row, the floor `z`)
      support₂ = hidden · W₂                    (10000 × 128 by 128 × 256)
      output   = adj · support₂ + b₂            (10000 × 10000 by 10000 × 256; the bias along each row)

  Every product is the row-by-column sum `rowDot`. Each stage is a function of the index of its result, and a
  stage's entry at row `r` depends on the left factor through its row `r` only (`rowDot_congr_row`): this is why
  computing a stage one band of rows at a time yields the same array. The biases enter as functions of the
  column, so that a bias stored as a vector and one stored as a one-row matrix are the same argument.
-/
import proofs.«114047_g62732292325833_cont_9to1c4b_592_2_alg».proof.Proof.LibRowDot

noncomputable section

open scoped BigOperators

namespace Cert.Gcn

open Idealize.ShloMosaic Idealize.ShloMosaic.ValueIdx Cert.LibRowDot

/-- `x · W₁`. -/
def support1 (x : Mat 10000 256) (w1 : Mat 256 128) : Mat 10000 128 :=
  fun i => rowDot x w1 (i 0) (i 1)

/-- `max (adj · s + b₁, z)`, the bias `b₁` added along each row. -/
def hidden (z : EReal) (adj : Mat 10000 10000) (s : Mat 10000 128) (b1 : Fin 128 → EReal) : Mat 10000 128 :=
  fun i => max (rowDot adj s (i 0) (i 1) + b1 (i 1)) z

/-- `h · W₂`. -/
def support2 (h : Mat 10000 128) (w2 : Mat 128 256) : Mat 10000 256 :=
  fun i => rowDot h w2 (i 0) (i 1)

/-- `adj · s + b₂`, the bias `b₂` added along each row. -/
def output (adj : Mat 10000 10000) (s : Mat 10000 256) (b2 : Fin 256 → EReal) : Mat 10000 256 :=
  fun i => rowDot adj s (i 0) (i 1) + b2 (i 1)

/-- The whole network: `adj · (max (adj · (x · W₁) + b₁, z) · W₂) + b₂`. -/
def gcn (z : EReal) (x : Mat 10000 256) (adj : Mat 10000 10000) (w1 : Mat 256 128) (b1 : Fin 128 → EReal)
    (w2 : Mat 128 256) (b2 : Fin 256 → EReal) : Mat 10000 256 :=
  output adj (support2 (hidden z adj (support1 x w1) b1) w2) b2

/-- A row-by-column sum sees its left factor through one row only: if row `p` of `a'` is row `r` of `a`, the
    two sums against any column agree. -/
theorem rowDot_congr_row {n n' d h : ℕ} (a : Mat n d) (a' : Mat n' d) (w : Mat d h) (r : Fin n) (p : Fin n')
    (q : Fin h) (hrow : ∀ k : Fin d, a' (ix2 p k) = a (ix2 r k)) : rowDot a' w p q = rowDot a w r q := by
  unfold rowDot
  exact Finset.sum_congr rfl fun k _ => by rw [hrow k]

/-- The hidden stage computed on a band of 400 rows `a'` of the adjacency matrix. -/
def hiddenBand (z : EReal) (a' : Mat 400 10000) (s : Mat 10000 128) (b1 : Fin 128 → EReal) : Mat 400 128 :=
  fun i => max (rowDot a' s (i 0) (i 1) + b1 (i 1)) z

/-- Row `p` of the band's hidden stage is row `r` of the whole hidden stage, when row `p` of the band is row `r`
    of the adjacency matrix. -/
theorem hiddenBand_row (z : EReal) (adj : Mat 10000 10000) (a' : Mat 400 10000) (s : Mat 10000 128)
    (b1 : Fin 128 → EReal) (r : Fin 10000) (p : Fin 400) (hrow : ∀ l : Fin 10000, a' (ix2 p l) = adj (ix2 r l))
    (k : Fin 128) : hiddenBand z a' s b1 (ix2 p k) = hidden z adj s b1 (ix2 r k) := by
  show max (rowDot a' s p k + b1 k) z = max (rowDot adj s r k + b1 k) z
  rw [rowDot_congr_row adj a' s r p k hrow]

/-- A band of the second support: the band's hidden rows against `W₂` give the rows of `support2` the band
    stands for. -/
theorem band_support2 (z : EReal) (adj : Mat 10000 10000) (a' : Mat 400 10000) (s : Mat 10000 128)
    (b1 : Fin 128 → EReal) (w2 : Mat 128 256) (r : Fin 10000) (p : Fin 400) (q : Fin 256)
    (hrow : ∀ l : Fin 10000, a' (ix2 p l) = adj (ix2 r l)) :
    rowDot (hiddenBand z a' s b1) w2 p q = support2 (hidden z adj s b1) w2 (ix2 r q) :=
  rowDot_congr_row (hidden z adj s b1) (hiddenBand z a' s b1) w2 r p q (hiddenBand_row z adj a' s b1 r p hrow)

/-- A band of the output: the band's rows against the second support, plus the bias, give the rows of
    `output` the band stands for. -/
theorem band_output (adj : Mat 10000 10000) (a' : Mat 400 10000) (s : Mat 10000 256) (b2 : Fin 256 → EReal)
    (r : Fin 10000) (p : Fin 400) (q : Fin 256) (hrow : ∀ l : Fin 10000, a' (ix2 p l) = adj (ix2 r l)) :
    rowDot a' s p q + b2 q = output adj s b2 (ix2 r q) := by
  show rowDot a' s p q + b2 q = rowDot adj s r q + b2 q
  rw [rowDot_congr_row adj a' s r p q hrow]

end Cert.Gcn

end
-- ==== Proof.Payloads.lean ====
/-
  What each of the three kernel bodies stores, read at an index, at the ideal values.

  The first body stores `x · W₁`: entry `i` is row `i 0` of `x` against column `i 1` of `W₁`. The second, on a band
  `a` of 400 rows of the adjacency matrix, stores `max (a · s + b₁, 0) · W₂`: entry `(p, q)` is row `p` of the band's
  hidden stage against column `q` of `W₂`. The third, on such a band, stores `a · s + b₂`. A product into a zero
  accumulator is the plain row-by-column sum; the bias is a one-row matrix repeated down the band; the floor of
  the maximum is the zero word's value.
-/
import proofs.«114047_g62732292325833_cont_9to1c4b_592_2_alg».proof.Proof.Gen.KernelIdeal.Skeleton
import proofs.«114047_g62732292325833_cont_9to1c4b_592_2_alg».proof.Proof.GcnSpec
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Idealize.ShloMosaic.Pipeline
open Cert.LibRowDot Cert.Gcn Cert.KernelIdeal Cert.KernelIdeal.Gen

/-- The floor of the rectifier: the ideal value of the zero word. -/
abbrev zero : EReal := Ideal.ofBits .f32 0x00000000#32

/-- The first body's stored value is `x · W₁`. -/
theorem pay0_apply (x : Vec Ideal S10000x256 .f32) (w : Vec Ideal S256x128 .f32) (i : S10000x128.Idx) :
    k0_pay1 (F := Ideal) x w i = support1 x w i := by
  unfold k0_pay1
  exact LibRowDot.matmul_zero_apply dot_S10000x256_S256x128_S10000x128_1_0_0_1_n_n rfl rfl rfl rfl rfl rfl none x w i

/-- The band's hidden stage, as the second body computes it, read at `(p, k)`. -/
theorem hidden_apply (a : FVec Ideal S400x10000 .f32) (s : FVec Ideal S10000x128 .f32) (b : FVec Ideal S1x128 .f32)
    (p : Fin 400) (k : Fin 128) :
    maximumf (F := Ideal) (addf (matmul dot_S400x10000_S10000x128_S400x128_1_0_0_1_n_n none a
        (shapeCast S10000x128 s shapeCasts_S10000x128_S10000x128) (constant S400x128 .f32 0x00000000#32))
      (broadcastTo S400x128 (shapeCast S1x128 b shapeCasts_S1x128_S1x128) broadcasts_S1x128_S400x128))
      (broadcast S400x128 (Scalar.ofBits .f32 0x00000000#32)) (ix2 p k)
    = hiddenBand zero a s (fun k => b (ix2 (0 : Fin 1) k)) (ix2 p k) := by
  rw [shapeCast_self, shapeCast_self]
  have e1 : matmul (F := Ideal) dot_S400x10000_S10000x128_S400x128_1_0_0_1_n_n none a s
      (constant S400x128 .f32 0x00000000#32) (ix2 p k) = rowDot a s p k :=
    LibRowDot.matmul_zero_apply dot_S400x10000_S10000x128_S400x128_1_0_0_1_n_n rfl rfl rfl rfl rfl rfl none a s (ix2 p k)
  have e2 : broadcastTo S400x128 b broadcasts_S1x128_S400x128 (ix2 p k) = b (ix2 (0 : Fin 1) k) :=
    broadcastTo_1b_ab_apply b _ p k
  rw [maximumf_apply, addf_apply, e1, e2]
  rfl

/-- The second body's stored value at `(p, q)`: row `p` of the band's hidden stage against column `q` of `W₂`. -/
theorem pay1_apply (a : Vec Ideal S400x10000 .f32) (s : Vec Ideal S10000x128 .f32) (b : Vec Ideal S1x128 .f32)
    (w : Vec Ideal S128x256 .f32) (p : Fin 400) (q : Fin 256) :
    k1_pay1 (F := Ideal) a s b w (ix2 p q) = rowDot (hiddenBand zero a s (fun k => b (ix2 (0 : Fin 1) k))) w p q := by
  unfold k1_pay1
  refine (LibRowDot.matmul_zero_apply dot_S400x128_S128x256_S400x256_1_0_0_1_n_n rfl rfl rfl rfl rfl rfl none _ w (ix2 p q)).trans ?_
  exact rowDot_congr_row _ _ w p p q fun k => hidden_apply a s b p k

/-- The third body's stored value at `(p, q)`: row `p` of the band against column `q` of the second support, plus
    the bias at `q`. -/
theorem pay2_apply (a : FVec Ideal S400x10000 .f32) (s : FVec Ideal S10000x256 .f32) (b : FVec Ideal S1x256 .f32)
    (p : Fin 400) (q : Fin 256) :
    k2_pay1 (F := Ideal) a s b (ix2 p q) = rowDot a s p q + b (ix2 (0 : Fin 1) q) := by
  unfold k2_pay1
  rw [shapeCast_self, shapeCast_self]
  have e1 : matmul (F := Ideal) dot_S400x10000_S10000x256_S400x256_1_0_0_1_n_n none a s
      (constant S400x256 .f32 0x00000000#32) (ix2 p q) = rowDot a s p q :=
    LibRowDot.matmul_zero_apply dot_S400x10000_S10000x256_S400x256_1_0_0_1_n_n rfl rfl rfl rfl rfl rfl none a s (ix2 p q)
  have e2 : broadcastTo S400x256 b broadcasts_S1x256_S400x256 (ix2 p q) = b (ix2 (0 : Fin 1) q) :=
    broadcastTo_1b_ab_apply b _ p q
  rw [addf_apply, e1, e2]

end Cert.KernelIdeal.Pay

end
-- ==== Proof.Region0.lean ====
/-
  The first region: `x · W₁` in one piece.

  The grid is a single point and every window is its whole array, so the body sees `x` and `W₁` entire and writes
  back the whole result: entry `i` is row `i 0` of `x` against column `i 1` of `W₁`.
-/
import proofs.«114047_g62732292325833_cont_9to1c4b_592_2_alg».proof.Proof.Gen.KernelIdeal.Frame
import proofs.«114047_g62732292325833_cont_9to1c4b_592_2_alg».proof.Proof.Payloads

set_option maxRecDepth 16384

noncomputable section

namespace Cert.KernelIdeal.Reg0

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.LibRowDot Cert.Gcn Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Every window sits at block 0 at the grid's one point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The window of `x` holds the whole array. -/
theorem blk0 (c : Dev nD) (t : Fin cfg0.N) : iblk0 V c 0 t = V c main_arg0 := by
  obtain ⟨e0, e1, -⟩ := idx_facts t
  funext y
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 256 + 1 * (y 1).val = (y 1).val; omega

/-- The window of `W₁` holds the whole array. -/
theorem blk1 (c : Dev nD) (t : Fin cfg0.N) : iblk0 V c 1 t = V c main_arg2 := by
  obtain ⟨-, -, e2, e3, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- An entry of the result block lies at the same index of the result array. -/
theorem out_emb (t : Fin cfg0.N) (j : S10000x128.Idx) : ((cfg0.win 2).blk t).view.emb j = j := by
  obtain ⟨-, -, -, -, e4, e5⟩ := idx_facts t
  refine funext fun a => Fin.ext ?_
  match a with
  | ⟨0, _⟩ => show win0_2.index t (0 : Fin 2) * 10000 + 1 * (j 0).val = (j 0).val; omega
  | ⟨1, _⟩ => show win0_2.index t (1 : Fin 2) * 128 + 1 * (j 1).val = (j 1).val; omega

/-- WHAT THE ONE POINT WRITES BACK is `x · W₁` of the arrays as the region finds them, read through the block. -/
theorem flushed_eq (c : Dev nD) (t : Fin cfg0.N) :
    (dat0 V c).flushed 2 t = ((cfg0.win 2).blk t).view.read (Elt Ideal) (support1 (V c main_arg0) (V c main_arg2)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  funext j
  show k0_pay1 (F := Ideal) (iblk0 V c 0 t) (iblk0 V c 1 t) j
    = support1 (V c main_arg0) (V c main_arg2) (((cfg0.win 2).blk t).view.emb j)
  rw [out_emb t j]
  refine (Pay.pay0_apply (iblk0 V c 0 t) (iblk0 V c 1 t) j).trans ?_
  exact congrArg₂ (fun (x : Vec Ideal S10000x256 .f32) (w : Vec Ideal S256x128 .f32) => support1 x w j)
    (blk0 V c t) (blk1 V c t)

/-- An index of the result array is in the one block iff each coordinate is in the block's range on its axis. -/
theorem mem_blk (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_call0_v2).slice (win0_2.rect t)).set ↔ _
  rw [View.set_slice_whole, Rect.mem_set_unit]
  exact Iff.rfl

/-- The one block is the whole array. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 1 := N_0
  have hlt : 0 < cfg0.N := by rw [hN]; exact Nat.one_pos
  obtain ⟨-, -, -, -, e4, e5⟩ := idx_facts ⟨0, hlt⟩
  refine ⟨⟨0, hlt⟩, flush0_2 _, ?_⟩
  rw [mem_blk]
  intro a
  match a with
  | ⟨0, _⟩ =>
    show win0_2.index ⟨0, hlt⟩ (0 : Fin 2) * 10000 ≤ (i 0).val
      ∧ (i 0).val < win0_2.index ⟨0, hlt⟩ (0 : Fin 2) * 10000 + 10000
    rw [e4]
    omega
  | ⟨1, _⟩ =>
    show win0_2.index ⟨0, hlt⟩ (1 : Fin 2) * 128 ≤ (i 1).val
      ∧ (i 1).val < win0_2.index ⟨0, hlt⟩ (1 : Fin 2) * 128 + 128
    rw [e5]
    omega

/-- THE RESULT ARRAY after the region: `x · W₁` of the arrays as the region finds them. -/
theorem final (c : Dev nD) : (dat0 V c).arrAt 2 cfg0.N = support1 (V c main_arg0) (V c main_arg2) :=
  (dat0 V c).arrAt_eq_of_cover 2 _ (fun t _ => flushed_eq V c t) cover

end Cert.KernelIdeal.Reg0

end
-- ==== Proof.Region1.lean ====
/-
  The second region: the bands of `hidden · W₂`.

  The grid has 25 points. At point `t` the body sees rows `400 t … 400 t + 399` of the adjacency matrix (its first
  window) and the whole of the first support, of the one-row bias and of `W₂` (block index 0 at every point), and
  it writes back rows `400 t … 400 t + 399` of its result. What it writes is that band of `support2 (hidden …) W₂`
  of the arrays as the region finds them: entry `(p, q)` of the band is row `p` of the band's hidden stage against
  column `q` of `W₂`, and row `p` of the band's hidden stage is row `400 t + p` of the whole hidden stage, which sees
  the adjacency matrix through that one row. The 25 bands tile the 10000 rows (row `r` lies in band `r / 400`), so
  the result array ends as the whole `support2 (hidden …) W₂`.
-/
import proofs.«114047_g62732292325833_cont_9to1c4b_592_2_alg».proof.Proof.Gen.KernelIdeal.Frame
import proofs.«114047_g62732292325833_cont_9to1c4b_592_2_alg».proof.Proof.Payloads

set_option maxRecDepth 16384

noncomputable section

namespace Cert.KernelIdeal.Reg1

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.LibRowDot Cert.Gcn Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array, of the four arrays it reads: `max (adj · s + b, 0) · W₂`. -/
def G (adj : Vec Ideal S10000x10000 .f32) (s : Vec Ideal S10000x128 .f32) (b : Vec Ideal S1x128 .f32)
    (w : Vec Ideal S128x256 .f32) : Vec Ideal S10000x256 .f32 :=
  support2 (hidden Pay.zero adj s (fun k => b (ix2 (0 : Fin 1) k))) w

/-- The block indices over the grid: the adjacency band and the result band move with the point, the other
    three windows stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 25 := lt_of_lt_of_eq t.isLt N_1

/-- The matrix row that row `p` of band `t` stands for. -/
def row (t : Fin cfg1.N) (p : Fin 400) : Fin 10000 :=
  ⟨t.val * 400 + p.val, by have := point_lt t; have := p.isLt; omega⟩

/-- Row `p` of the adjacency window's block at point `t` is row `400 t + p` of the adjacency matrix. -/
theorem blk0_row (c : Dev nD) (t : Fin cfg1.N) (p : Fin 400) (l : Fin 10000) :
    iblk1 V c 0 t (ix2 p l) = V c main_arg1 (ix2 (row t p) l) := by
  obtain ⟨e0, e1, -⟩ := idx_facts t
  show V c main_arg1 (((cfg1.win 0).blk t).view.emb (ix2 p l)) = V c main_arg1 (ix2 (row t p) l)
  refine congrArg (V c main_arg1) (funext fun a => Fin.ext ?_)
  match a with
  | ⟨0, _⟩ => show win1_0.index t (0 : Fin 2) * 400 + 1 * p.val = t.val * 400 + p.val; omega
  | ⟨1, _⟩ => show win1_0.index t (1 : Fin 2) * 10000 + 1 * l.val = l.val; omega

/-- The first support's window holds the whole array at every point. -/
theorem blk1 (c : Dev nD) (t : Fin cfg1.N) : iblk1 V c 1 t = V c main_call0_v2 := by
  obtain ⟨-, -, e2, e3, -⟩ := idx_facts t
  funext y
  show V c main_call0_v2 (((cfg1.win 1).blk t).view.emb y) = V c main_call0_v2 y
  refine congrArg (V c main_call0_v2) (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The bias window holds the whole one-row array at every point. -/
theorem blk2 (c : Dev nD) (t : Fin cfg1.N) : iblk1 V c 2 t = V c main_call0_v0 := by
  obtain ⟨-, -, -, -, e4, e5, -⟩ := idx_facts t
  funext y
  show V c main_call0_v0 (((cfg1.win 2).blk t).view.emb y) = V c main_call0_v0 y
  refine congrArg (V c main_call0_v0) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The window of `W₂` holds the whole array at every point. -/
theorem blk3 (c : Dev nD) (t : Fin cfg1.N) : iblk1 V c 3 t = V c main_arg4 := by
  obtain ⟨-, -, -, -, -, -, e6, e7, -⟩ := idx_facts t
  funext y
  show V c main_arg4 (((cfg1.win 3).blk t).view.emb y) = V c main_arg4 y
  refine congrArg (V c main_arg4) (funext fun a => Fin.ext ?_)
  match a with
  | ⟨0, _⟩ => show win1_3.index t (0 : Fin 2) * 128 + 1 * (y 0).val = (y 0).val; omega
  | ⟨1, _⟩ => show win1_3.index t (1 : Fin 2) * 256 + 1 * (y 1).val = (y 1).val; omega

/-- Entry `(p, q)` of the result band at point `t` lies at `(400 t + p, q)` of the result array. -/
theorem out_emb (t : Fin cfg1.N) (p : Fin 400) (q : Fin 256) :
    ((cfg1.win 4).blk t).view.emb (ix2 p q) = ix2 (row t p) q := by
  obtain ⟨-, -, -, -, -, -, -, -, e8, e9⟩ := idx_facts t
  refine funext fun a => Fin.ext ?_
  match a with
  | ⟨0, _⟩ => show win1_4.index t (0 : Fin 2) * 400 + 1 * p.val = t.val * 400 + p.val; omega
  | ⟨1, _⟩ => show win1_4.index t (1 : Fin 2) * 256 + 1 * q.val = q.val; omega

/-- The band's value over blocks that ARE the arrays (or a band of their rows) is the band of `G`. -/
theorem band_point (adj : Vec Ideal S10000x10000 .f32) (s : Vec Ideal S10000x128 .f32) (b : Vec Ideal S1x128 .f32)
    (w : Vec Ideal S128x256 .f32) (a' : Vec Ideal S400x10000 .f32) (s' : Vec Ideal S10000x128 .f32)
    (b' : Vec Ideal S1x128 .f32) (w' : Vec Ideal S128x256 .f32) (r : Fin 10000) (p : Fin 400) (q : Fin 256)
    (hs : s' = s) (hb : b' = b) (hw : w' = w) (hrow : ∀ l : Fin 10000, a' (ix2 p l) = adj (ix2 r l)) :
    rowDot (hiddenBand Pay.zero a' s' (fun k => b' (ix2 (0 : Fin 1) k))) w' p q = G adj s b w (ix2 r q) := by
  subst hs hb hw
  exact band_support2 Pay.zero adj a' s' _ w' r p q hrow

/-- WHAT POINT `t` WRITES BACK is band `t` of `G` of the arrays as the region finds them. -/
theorem flushed_eq (c : Dev nD) (t : Fin cfg1.N) :
    (dat1 V c).flushed 4 t = ((cfg1.win 4).blk t).view.read (Elt Ideal)
      (G (V c main_arg1) (V c main_call0_v2) (V c main_call0_v0) (V c main_arg4)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S1x128) hz, View.ld_unit_zero (S := S128x256) hz]
  funext j
  obtain ⟨p, q, rfl⟩ : ∃ (p : Fin 400) (q : Fin 256), j = ix2 p q := ⟨j 0, j 1, eq_ix2 j⟩
  show k1_pay1 (F := Ideal) (iblk1 V c 0 t) (iblk1 V c 1 t) (iblk1 V c 2 t) (iblk1 V c 3 t) (ix2 p q)
    = G (V c main_arg1) (V c main_call0_v2) (V c main_call0_v0) (V c main_arg4) (((cfg1.win 4).blk t).view.emb (ix2 p q))
  rw [out_emb t p q]
  refine (Pay.pay1_apply (iblk1 V c 0 t) (iblk1 V c 1 t) (iblk1 V c 2 t) (iblk1 V c 3 t) p q).trans ?_
  exact band_point (V c main_arg1) (V c main_call0_v2) (V c main_call0_v0) (V c main_arg4)
    (iblk1 V c 0 t) (iblk1 V c 1 t) (iblk1 V c 2 t) (iblk1 V c 3 t) (row t p) p q
    (blk1 V c t) (blk2 V c t) (blk3 V c t) (fun l => blk0_row V c t p l)

/-- An index of the result array is in band `t` iff each coordinate is in the band's range on its axis. -/
theorem mem_blk (t : Fin cfg1.N) (i : S10000x256.Idx) :
    i ∈ ((cfg1.win 4).blk t).view.set ↔ ∀ a : Fin 2, win1_4.index t a * S400x256.size a ≤ (i a).val
      ∧ (i a).val < win1_4.index t a * S400x256.size a + S400x256.size a := by
  show i ∈ ((View.whole main_call0_v3).slice (win1_4.rect t)).set ↔ _
  rw [View.set_slice_whole, Rect.mem_set_unit]
  exact Iff.rfl

/-- The bands tile the rows: row `r` is in band `r / 400`. -/
theorem cover (i : S10000x256.Idx) :
    ∃ t : Fin cfg1.N, (cfg1.win 4).flush t = true ∧ i ∈ ((cfg1.win 4).blk t).view.set := by
  have hi0 : (i 0).val < 10000 := (i 0).isLt
  have hi1 : (i 1).val < 256 := (i 1).isLt
  have hN : cfg1.N = 25 := N_1
  have hlt : (i 0).val / 400 < cfg1.N := by rw [hN]; omega
  obtain ⟨-, -, -, -, -, -, -, -, e8, e9⟩ := idx_facts ⟨(i 0).val / 400, hlt⟩
  refine ⟨⟨(i 0).val / 400, hlt⟩, flush1_4 _, ?_⟩
  rw [mem_blk]
  intro a
  match a with
  | ⟨0, _⟩ =>
    show win1_4.index ⟨(i 0).val / 400, hlt⟩ (0 : Fin 2) * 400 ≤ (i 0).val
      ∧ (i 0).val < win1_4.index ⟨(i 0).val / 400, hlt⟩ (0 : Fin 2) * 400 + 400
    rw [e8]
    show (i 0).val / 400 * 400 ≤ (i 0).val ∧ (i 0).val < (i 0).val / 400 * 400 + 400
    omega
  | ⟨1, _⟩ =>
    show win1_4.index ⟨(i 0).val / 400, hlt⟩ (1 : Fin 2) * 256 ≤ (i 1).val
      ∧ (i 1).val < win1_4.index ⟨(i 0).val / 400, hlt⟩ (1 : Fin 2) * 256 + 256
    rw [e9]
    omega

/-- THE RESULT ARRAY after the region: `max (adj · s + b, 0) · W₂` of the arrays as the region finds them. -/
theorem final (c : Dev nD) :
    (dat1 V c).arrAt 4 cfg1.N = G (V c main_arg1) (V c main_call0_v2) (V c main_call0_v0) (V c main_arg4) :=
  (dat1 V c).arrAt_eq_of_cover 4 _ (fun t _ => flushed_eq V c t) cover

end Cert.KernelIdeal.Reg1

end
-- ==== Proof.Region2.lean ====
/-
  The third region: the bands of `adj · s + b₂`.

  The grid has 25 points. At point `t` the body sees rows `400 t … 400 t + 399` of the adjacency matrix and the whole
  of the second support and of the one-row bias, and writes back rows `400 t … 400 t + 399` of the result: entry
  `(p, q)` of the band is row `p` of the band against column `q` of the second support, plus the bias at `q`, which
  is entry `(400 t + p, q)` of `output` of the whole arrays. The 25 bands tile the 10000 rows.
-/
import proofs.«114047_g62732292325833_cont_9to1c4b_592_2_alg».proof.Proof.Gen.KernelIdeal.Frame
import proofs.«114047_g62732292325833_cont_9to1c4b_592_2_alg».proof.Proof.Payloads

set_option maxRecDepth 16384

noncomputable section

namespace Cert.KernelIdeal.Reg2

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.LibRowDot Cert.Gcn Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array, of the three arrays it reads: `adj · s + b`. -/
def G (adj : Vec Ideal S10000x10000 .f32) (s : Vec Ideal S10000x256 .f32) (b : Vec Ideal S1x256 .f32) :
    Vec Ideal S10000x256 .f32 :=
  output adj s (fun q => b (ix2 (0 : Fin 1) q))

/-- The block indices over the grid: the adjacency band and the result band move with the point, the other two
    windows stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 25 := lt_of_lt_of_eq t.isLt N_2

/-- The matrix row that row `p` of band `t` stands for. -/
def row (t : Fin cfg2.N) (p : Fin 400) : Fin 10000 :=
  ⟨t.val * 400 + p.val, by have := point_lt t; have := p.isLt; omega⟩

/-- Row `p` of the adjacency window's block at point `t` is row `400 t + p` of the adjacency matrix. -/
theorem blk0_row (c : Dev nD) (t : Fin cfg2.N) (p : Fin 400) (l : Fin 10000) :
    iblk2 V c 0 t (ix2 p l) = V c main_arg1 (ix2 (row t p) l) := by
  obtain ⟨e0, e1, -⟩ := idx_facts t
  show V c main_arg1 (((cfg2.win 0).blk t).view.emb (ix2 p l)) = V c main_arg1 (ix2 (row t p) l)
  refine congrArg (V c main_arg1) (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * l.val = l.val; omega

/-- The second support's window holds the whole array at every point. -/
theorem blk1 (c : Dev nD) (t : Fin cfg2.N) : iblk2 V c 1 t = V c main_call0_v3 := by
  obtain ⟨-, -, e2, e3, -⟩ := idx_facts t
  funext y
  show V c main_call0_v3 (((cfg2.win 1).blk t).view.emb y) = V c main_call0_v3 y
  refine congrArg (V c main_call0_v3) (funext fun a => Fin.ext ?_)
  match a with
  | ⟨0, _⟩ => show win2_1.index t (0 : Fin 2) * 10000 + 1 * (y 0).val = (y 0).val; omega
  | ⟨1, _⟩ => show win2_1.index t (1 : Fin 2) * 256 + 1 * (y 1).val = (y 1).val; omega

/-- The bias window holds the whole one-row array at every point. -/
theorem blk2 (c : Dev nD) (t : Fin cfg2.N) : iblk2 V c 2 t = V c main_call0_v1 := by
  obtain ⟨-, -, -, -, e4, e5, -⟩ := idx_facts t
  funext y
  show V c main_call0_v1 (((cfg2.win 2).blk t).view.emb y) = V c main_call0_v1 y
  refine congrArg (V c main_call0_v1) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Entry `(p, q)` of the result band at point `t` lies at `(400 t + p, q)` of the result array. -/
theorem out_emb (t : Fin cfg2.N) (p : Fin 400) (q : Fin 256) :
    ((cfg2.win 3).blk t).view.emb (ix2 p q) = ix2 (row t p) q := by
  obtain ⟨-, -, -, -, -, -, e6, e7⟩ := idx_facts t
  refine funext fun a => Fin.ext ?_
  match a with
  | ⟨0, _⟩ => show win2_3.index t (0 : Fin 2) * 400 + 1 * p.val = t.val * 400 + p.val; omega
  | ⟨1, _⟩ => show win2_3.index t (1 : Fin 2) * 256 + 1 * q.val = q.val; omega

/-- The band's value over blocks that ARE the arrays (or a band of their rows) is the band of `G`. -/
theorem band_point (adj : Vec Ideal S10000x10000 .f32) (s : Vec Ideal S10000x256 .f32) (b : Vec Ideal S1x256 .f32)
    (a' : Vec Ideal S400x10000 .f32) (s' : Vec Ideal S10000x256 .f32) (b' : Vec Ideal S1x256 .f32)
    (r : Fin 10000) (p : Fin 400) (q : Fin 256)
    (hs : s' = s) (hb : b' = b) (hrow : ∀ l : Fin 10000, a' (ix2 p l) = adj (ix2 r l)) :
    rowDot a' s' p q + b' (ix2 (0 : Fin 1) q) = G adj s b (ix2 r q) := by
  subst hs hb
  exact band_output adj a' s' (fun q => b' (ix2 (0 : Fin 1) q)) r p q hrow

/-- WHAT POINT `t` WRITES BACK is band `t` of `G` of the arrays as the region finds them. -/
theorem flushed_eq (c : Dev nD) (t : Fin cfg2.N) :
    (dat2 V c).flushed 3 t = ((cfg2.win 3).blk t).view.read (Elt Ideal)
      (G (V c main_arg1) (V c main_call0_v3) (V c main_call0_v1)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x256) hz,
    View.ld_unit_zero (S := S1x256) hz]
  funext j
  obtain ⟨p, q, rfl⟩ : ∃ (p : Fin 400) (q : Fin 256), j = ix2 p q := ⟨j 0, j 1, eq_ix2 j⟩
  show k2_pay1 (F := Ideal) (iblk2 V c 0 t) (iblk2 V c 1 t) (iblk2 V c 2 t) (ix2 p q)
    = G (V c main_arg1) (V c main_call0_v3) (V c main_call0_v1) (((cfg2.win 3).blk t).view.emb (ix2 p q))
  rw [out_emb t p q]
  refine (Pay.pay2_apply (iblk2 V c 0 t) (iblk2 V c 1 t) (iblk2 V c 2 t) p q).trans ?_
  exact band_point (V c main_arg1) (V c main_call0_v3) (V c main_call0_v1)
    (iblk2 V c 0 t) (iblk2 V c 1 t) (iblk2 V c 2 t) (row t p) p q
    (blk1 V c t) (blk2 V c t) (fun l => blk0_row V c t p l)

/-- An index of the result array is in band `t` iff each coordinate is in the band's range on its axis. -/
theorem mem_blk (t : Fin cfg2.N) (i : S10000x256.Idx) :
    i ∈ ((cfg2.win 3).blk t).view.set ↔ ∀ a : Fin 2, win2_3.index t a * S400x256.size a ≤ (i a).val
      ∧ (i a).val < win2_3.index t a * S400x256.size a + S400x256.size a := by
  show i ∈ ((View.whole main_v0).slice (win2_3.rect t)).set ↔ _
  rw [View.set_slice_whole, Rect.mem_set_unit]
  exact Iff.rfl

/-- The bands tile the rows: row `r` is in band `r / 400`. -/
theorem cover (i : S10000x256.Idx) :
    ∃ t : Fin cfg2.N, (cfg2.win 3).flush t = true ∧ i ∈ ((cfg2.win 3).blk t).view.set := by
  have hi0 : (i 0).val < 10000 := (i 0).isLt
  have hi1 : (i 1).val < 256 := (i 1).isLt
  have hN : cfg2.N = 25 := N_2
  have hlt : (i 0).val / 400 < cfg2.N := by rw [hN]; omega
  obtain ⟨-, -, -, -, -, -, e6, e7⟩ := idx_facts ⟨(i 0).val / 400, hlt⟩
  refine ⟨⟨(i 0).val / 400, hlt⟩, flush2_3 _, ?_⟩
  rw [mem_blk]
  intro a
  match a with
  | ⟨0, _⟩ =>
    show win2_3.index ⟨(i 0).val / 400, hlt⟩ (0 : Fin 2) * 400 ≤ (i 0).val
      ∧ (i 0).val < win2_3.index ⟨(i 0).val / 400, hlt⟩ (0 : Fin 2) * 400 + 400
    rw [e6]
    show (i 0).val / 400 * 400 ≤ (i 0).val ∧ (i 0).val < (i 0).val / 400 * 400 + 400
    omega
  | ⟨1, _⟩ =>
    show win2_3.index ⟨(i 0).val / 400, hlt⟩ (1 : Fin 2) * 256 ≤ (i 1).val
      ∧ (i 1).val < win2_3.index ⟨(i 0).val / 400, hlt⟩ (1 : Fin 2) * 256 + 256
    rw [e7]
    omega

/-- THE RESULT ARRAY after the region: `adj · s + b` of the arrays as the region finds them. -/
theorem final (c : Dev nD) :
    (dat2 V c).arrAt 3 cfg2.N = G (V c main_arg1) (V c main_call0_v3) (V c main_call0_v1) :=
  (dat2 V c).arrAt_eq_of_cover 3 _ (fun t _ => flushed_eq V c t) cover

end Cert.KernelIdeal.Reg2

end
-- ==== Proof.Chain.lean ====
/-
  The fold of buffer contents through the program, read back to the launch memory.

  The program is a stretch of two host reshapes (each bias vector to a one-row matrix) and three regions. The
  contents at each boundary are the previous boundary's, with a region's arrays replaced by what its write-backs
  leave. Walking back from the last boundary:
    the result array holds the third region's `adj · s₂ + b₂` of that region's entry arrays;
    there `s₂` is what the second region left, `max (adj · s₁ + b₁, 0) · W₂` of ITS entry arrays;
    there `s₁` is what the first region left, `x · W₁`;
    the adjacency matrix, `x`, `W₁` and `W₂` are never written, so at every boundary they hold the launch contents;
    the one-row biases are the host reshapes of the launch bias vectors, written once before the first region.
  A vector reshaped to one row reads at `(0, k)` the vector's entry `k`, so the whole is the network `gcn` of the six
  launch arrays.
-/
import proofs.«114047_g62732292325833_cont_9to1c4b_592_2_alg».proof.Proof.KernelRun
import proofs.«114047_g62732292325833_cont_9to1c4b_592_2_alg».proof.Proof.Region0
import proofs.«114047_g62732292325833_cont_9to1c4b_592_2_alg».proof.Proof.Region1
import proofs.«114047_g62732292325833_cont_9to1c4b_592_2_alg».proof.Proof.Region2
import Idealize.ShloMosaic.Lib.ValueLayout
import Idealize.ShloMosaic.Lib.StableHlo.Run

set_option maxRecDepth 16384

noncomputable section

namespace Cert.KernelIdeal.Chain

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.LibRowDot Cert.Gcn Cert.KernelIdeal Cert.KernelIdeal.Gen
open Idealize.ShloMosaic.StableHlo

variable (m : (ℓ : Loc nD τ sig) → Buf (Elt Ideal) ℓ) (ρ : Dev nD → PrngReg)

/-! ## After the host stretch -/

/-- `x` is not written by the host stretch. -/
theorem W1_x (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))).trans rfl
/-- The adjacency matrix is not written by the host stretch. -/
theorem W1_adj (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))).trans rfl
/-- `W₁` is not written by the host stretch. -/
theorem W1_w1 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))).trans rfl
/-- `W₂` is not written by the host stretch. -/
theorem W1_w2 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))).trans rfl

/-- The first bias as one row: the host reshape of the launch vector. -/
theorem W1_b1 (c : Dev nD) : (W1 m ρ c (Proc.devRef .tc main_call0_v0) : Vec Ideal S1x128 .f32)
    = shapeCast S1x128 (m ((c : Thread nD τ).loc main_arg3)) shapeCasts_S128_S1x128 := by
  show StableHlo.after hostOps0 (W0 m ρ c) (Proc.devRef .tc main_call0_v0) = _
  after_results
  rfl
/-- The second bias as one row: the host reshape of the launch vector. -/
theorem W1_b2 (c : Dev nD) : (W1 m ρ c (Proc.devRef .tc main_call0_v1) : Vec Ideal S1x256 .f32)
    = shapeCast S1x256 (m ((c : Thread nD τ).loc main_arg5)) shapeCasts_S256_S1x256 := by
  show StableHlo.after hostOps0 (W0 m ρ c) (Proc.devRef .tc main_call0_v1) = _
  after_results
  rfl

/-! ## At the first region's entry and exit -/

theorem V1_x (c : Dev nD) : V1 m ρ c main_arg0 = m ((c : Thread nD τ).loc main_arg0) := W1_x m ρ c
theorem V1_w1 (c : Dev nD) : V1 m ρ c main_arg2 = m ((c : Thread nD τ).loc main_arg2) := W1_w1 m ρ c

theorem V2_adj (c : Dev nD) : V2 m ρ c main_arg1 = m ((c : Thread nD τ).loc main_arg1) :=
  (W2_of_ne m ρ c main_arg1 (by decide)).trans (W1_adj m ρ c)
theorem V2_w2 (c : Dev nD) : V2 m ρ c main_arg4 = m ((c : Thread nD τ).loc main_arg4) :=
  (W2_of_ne m ρ c main_arg4 (by decide)).trans (W1_w2 m ρ c)
theorem V2_b1 (c : Dev nD) : (V2 m ρ c main_call0_v0 : Vec Ideal S1x128 .f32)
    = shapeCast S1x128 (m ((c : Thread nD τ).loc main_arg3)) shapeCasts_S128_S1x128 :=
  (W2_of_ne m ρ c main_call0_v0 (by decide)).trans (W1_b1 m ρ c)
/-- The first region leaves `x · W₁` of the launch arrays. -/
theorem V2_s1 (c : Dev nD) : (V2 m ρ c main_call0_v2 : Vec Ideal S10000x128 .f32)
    = support1 (m ((c : Thread nD τ).loc main_arg0)) (m ((c : Thread nD τ).loc main_arg2)) :=
  (W2_arr m ρ c 2).trans ((Reg0.final (V1 m ρ) c).trans (by rw [V1_x, V1_w1]))

/-! ## At the second region's exit -/

theorem V3_adj (c : Dev nD) : V3 m ρ c main_arg1 = m ((c : Thread nD τ).loc main_arg1) :=
  (W3_arr m ρ c 0).trans (((dat1 (V2 m ρ) c).arrAt_in 0 rfl _).trans ((A_eq1 (V2 m ρ) c 0).trans (V2_adj m ρ c)))
theorem V3_b2 (c : Dev nD) : (V3 m ρ c main_call0_v1 : Vec Ideal S1x256 .f32)
    = shapeCast S1x256 (m ((c : Thread nD τ).loc main_arg5)) shapeCasts_S256_S1x256 :=
  (W3_of_ne m ρ c main_call0_v1 (by decide)).trans ((W2_of_ne m ρ c main_call0_v1 (by decide)).trans (W1_b2 m ρ c))
/-- The second region leaves `max (adj · (x · W₁) + b₁, 0) · W₂` of the launch arrays. -/
theorem V3_s2 (c : Dev nD) : (V3 m ρ c main_call0_v3 : Vec Ideal S10000x256 .f32)
    = Reg1.G (m ((c : Thread nD τ).loc main_arg1))
        (support1 (m ((c : Thread nD τ).loc main_arg0)) (m ((c : Thread nD τ).loc main_arg2)))
        (shapeCast S1x128 (m ((c : Thread nD τ).loc main_arg3)) shapeCasts_S128_S1x128)
        (m ((c : Thread nD τ).loc main_arg4)) :=
  (W3_arr m ρ c 4).trans ((Reg1.final (V2 m ρ) c).trans (by rw [V2_adj, V2_s1, V2_b1, V2_w2]))

/-! ## At the return -/

/-- The third region leaves `adj · s₂ + b₂`. -/
theorem W4_out (c : Dev nD) : (W4 m ρ c (Proc.devRef .tc main_v0) : Vec Ideal S10000x256 .f32)
    = Reg2.G (m ((c : Thread nD τ).loc main_arg1))
        (Reg1.G (m ((c : Thread nD τ).loc main_arg1))
          (support1 (m ((c : Thread nD τ).loc main_arg0)) (m ((c : Thread nD τ).loc main_arg2)))
          (shapeCast S1x128 (m ((c : Thread nD τ).loc main_arg3)) shapeCasts_S128_S1x128)
          (m ((c : Thread nD τ).loc main_arg4)))
        (shapeCast S1x256 (m ((c : Thread nD τ).loc main_arg5)) shapeCasts_S256_S1x256) :=
  (W4_arr m ρ c 3).trans ((Reg2.final (V3 m ρ) c).trans (by rw [V3_adj, V3_s2, V3_b2]))

/-- The three regions' functions, composed over the reshaped biases, are the network. -/
theorem regions_eq_gcn (x : Vec Ideal S10000x256 .f32) (adj : Vec Ideal S10000x10000 .f32) (w1 : Vec Ideal S256x128 .f32)
    (b1 : Vec Ideal S128 .f32) (w2 : Vec Ideal S128x256 .f32) (b2 : Vec Ideal S256 .f32) :
    Reg2.G adj (Reg1.G adj (support1 x w1) (shapeCast S1x128 b1 shapeCasts_S128_S1x128) w2)
        (shapeCast S1x256 b2 shapeCasts_S256_S1x256)
      = gcn Pay.zero x adj w1 (fun k => b1 (ix1 k)) w2 (fun q => b2 (ix1 q)) := by
  have e1 : (fun k : Fin 128 => shapeCast S1x128 b1 shapeCasts_S128_S1x128 (ix2 (0 : Fin 1) k)) = fun k => b1 (ix1 k) :=
    funext fun k => shapeCast_a_1a_apply b1 shapeCasts_S128_S1x128 0 k
  have e2 : (fun q : Fin 256 => shapeCast S1x256 b2 shapeCasts_S256_S1x256 (ix2 (0 : Fin 1) q)) = fun q => b2 (ix1 q) :=
    funext fun q => shapeCast_a_1a_apply b2 shapeCasts_S256_S1x256 0 q
  unfold Reg2.G Reg1.G gcn
  rw [e1, e2]

/-! ## The run -/

/-- THE KERNEL PROGRAM'S RUN at the ideal values: every weakly fair execution terminates, nothing faulting, with the
    result array at the network of the six launch arrays and those arrays unchanged. -/
theorem run : θ_run defs (onTc (τ := τ) (main (F := Ideal))) ⟨m, fun _ => 0, ρ⟩ (fun r => ∀ c : Dev nD,
      r.2.mem ((c.tc : Thread nD τ).loc main_v0)
        = gcn Pay.zero (m ((c.tc : Thread nD τ).loc main_arg0)) (m ((c.tc : Thread nD τ).loc main_arg1))
            (m ((c.tc : Thread nD τ).loc main_arg2)) (fun k => m ((c.tc : Thread nD τ).loc main_arg3) (ix1 k))
            (m ((c.tc : Thread nD τ).loc main_arg4)) (fun q => m ((c.tc : Thread nD τ).loc main_arg5) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans ((W4_out m ρ c).trans (regions_eq_gcn _ _ _ _ _ _)), (h c).2⟩)
    (Cert.KernelIdeal.GenRun.run_out m ρ)

end Cert.KernelIdeal.Chain

end
-- ==== Proof.RefValue.lean ====
/-
  The reference program's stages are the network's stages.

  Its first product is `support1`; its second product, the bias broadcast along the rows, the sum and the maximum
  against the broadcast zero give `hidden`; its third product is `support2` of that; its last product, bias and sum
  give `output`. Each host product, at the ideal values, is the plain row-by-column sum; a vector broadcast first to
  one row and then to all rows is read at `(r, k)` at its entry `k`.
-/
import proofs.«114047_g62732292325833_cont_9to1c4b_592_2_alg».proof.Proof.Gen.ReferenceIdeal.Read
import proofs.«114047_g62732292325833_cont_9to1c4b_592_2_alg».proof.Proof.GcnSpec

noncomputable section

namespace Cert.ReferenceIdeal.RefValue

open Idealize.ShloMosaic Idealize.ShloMosaic.ValueIdx
open Cert.LibRowDot Cert.Gcn Cert.ReferenceIdeal Cert.ReferenceIdeal.Gen Cert.ReferenceIdeal.Read

/-- The floor of the rectifier: the ideal value of the zero word. -/
abbrev zero : EReal := Ideal.ofBits .f32 0x00000000#32

/-- The first product is `x · W₁`. -/
theorem v0_eq (x0 : Vec Ideal S10000x256 .f32) (x2 : Vec Ideal S256x128 .f32) :
    val_main_v0 (F := Ideal) x0 x2 = support1 x0 x2 := by
  funext i
  unfold val_main_v0
  simp only [Host.dotGeneral]
  exact LibRowDot.dotGeneral_apply dot_S10000x256_S256x128_S10000x128_1_0_0_1_n_n rfl rfl rfl rfl rfl rfl none _ x0 x2 i

/-- The bias vector, broadcast to one row and then to every row, read at `(r, k)`. -/
theorem v3_apply (x3 : Vec Ideal S128 .f32) (r : Fin 10000) (k : Fin 128) :
    val_main_v3 (F := Ideal) x3 (ix2 r k) = x3 (ix1 k) := by
  rw [val_main_v3_apply, val_main_v2_apply]
  exact congrArg x3 (funext fun a => match a with | ⟨0, _⟩ => rfl)

/-- The rectified sum is the hidden stage. -/
theorem v6_eq (x0 : Vec Ideal S10000x256 .f32) (x1 : Vec Ideal S10000x10000 .f32) (x2 : Vec Ideal S256x128 .f32)
    (x3 : Vec Ideal S128 .f32) :
    val_main_v6 (F := Ideal) x0 x1 x2 x3 = hidden zero x1 (support1 x0 x2) (fun k => x3 (ix1 k)) := by
  funext i
  obtain ⟨r, k, rfl⟩ : ∃ (r : Fin 10000) (k : Fin 128), i = ix2 r k := ⟨i 0, i 1, eq_ix2 i⟩
  have e1 : val_main_v1 (F := Ideal) x0 x1 x2 (ix2 r k) = rowDot x1 (support1 x0 x2) r k := by
    unfold val_main_v1
    rw [v0_eq]
    simp only [Host.dotGeneral]
    exact LibRowDot.dotGeneral_apply dot_S10000x10000_S10000x128_S10000x128_1_0_0_1_n_n rfl rfl rfl rfl rfl rfl none _ x1 _ (ix2 r k)
  have e5 : val_main_v5 (F := Ideal) (ix2 r k) = zero := by rw [val_main_v5_apply]; rfl
  rw [val_main_v6_apply, val_main_v4_apply, e1, v3_apply, e5]
  rfl

/-- The third product is the second support. -/
theorem v7_eq (x0 : Vec Ideal S10000x256 .f32) (x1 : Vec Ideal S10000x10000 .f32) (x2 : Vec Ideal S256x128 .f32)
    (x3 : Vec Ideal S128 .f32) (x4 : Vec Ideal S128x256 .f32) :
    val_main_v7 (F := Ideal) x0 x1 x2 x3 x4 = support2 (hidden zero x1 (support1 x0 x2) (fun k => x3 (ix1 k))) x4 := by
  funext i
  unfold val_main_v7
  rw [v6_eq]
  simp only [Host.dotGeneral]
  exact LibRowDot.dotGeneral_apply dot_S10000x128_S128x256_S10000x256_1_0_0_1_n_n rfl rfl rfl rfl rfl rfl none _ _ x4 i

/-- The bias vector of the second layer, broadcast to one row and then to every row, read at `(r, q)`. -/
theorem v10_apply (x5 : Vec Ideal S256 .f32) (r : Fin 10000) (q : Fin 256) :
    val_main_v10 (F := Ideal) x5 (ix2 r q) = x5 (ix1 q) := by
  rw [val_main_v10_apply, val_main_v9_apply]
  exact congrArg x5 (funext fun a => match a with | ⟨0, _⟩ => rfl)

/-- THE REFERENCE'S RESULT is the network of its six arguments. -/
theorem v11_eq (x0 : Vec Ideal S10000x256 .f32) (x1 : Vec Ideal S10000x10000 .f32) (x2 : Vec Ideal S256x128 .f32)
    (x3 : Vec Ideal S128 .f32) (x4 : Vec Ideal S128x256 .f32) (x5 : Vec Ideal S256 .f32) :
    val_main_v11 (F := Ideal) x0 x1 x2 x3 x4 x5
      = gcn zero x0 x1 x2 (fun k => x3 (ix1 k)) x4 (fun q => x5 (ix1 q)) := by
  funext i
  obtain ⟨r, q, rfl⟩ : ∃ (r : Fin 10000) (q : Fin 256), i = ix2 r q := ⟨i 0, i 1, eq_ix2 i⟩
  have e8 : val_main_v8 (F := Ideal) x0 x1 x2 x3 x4 (ix2 r q)
      = rowDot x1 (support2 (hidden zero x1 (support1 x0 x2) (fun k => x3 (ix1 k))) x4) r q := by
    unfold val_main_v8
    rw [v7_eq]
    simp only [Host.dotGeneral]
    exact LibRowDot.dotGeneral_apply dot_S10000x10000_S10000x256_S10000x256_1_0_0_1_n_n rfl rfl rfl rfl rfl rfl none _ x1 _ (ix2 r q)
  rw [val_main_v11_apply, e8, v10_apply]
  rfl

end Cert.ReferenceIdeal.RefValue

end
-- ==== Proof.lean ====
/-
  A two-layer graph convolution with a dense adjacency matrix,
      out = adj · (max (adj · (x · W₁) + b₁, 0) · W₂) + b₂,
  computed by three kernel regions against the same formula written with whole-array operations.

  The kernel program first forms `x · W₁` in one piece; then, one band of 400 rows of `adj` at a time, the rows
  `max (adj · (x · W₁) + b₁, 0) · W₂` of the second support; then, again one band at a time, the rows of
  `adj · (second support) + b₂`. At the ideal values a matrix product into a zero accumulator is the plain
  row-by-column sum, and an entry of a product depends on the left factor through one row only; so each band is the
  corresponding band of the whole-array stage, the 25 bands tile the 10000 rows, and the three regions compose to
  the network `Cert.Gcn.gcn` of the six argument arrays (Proof/GcnSpec.lean; Region0 – Region2; Chain). The
  reference's operations, read one at a time, are the same stages (Proof/RefValue.lean). No algebraic law beyond
  this rearrangement is used: the sums are taken over the same index sets in the same grouping on both sides, so the
  finiteness of the inputs is never needed. The ideal pass rewrote nothing, so the idealized kernel is the kernel's
  own text and that claim is `True`.
-/
import proofs.«114047_g62732292325833_cont_9to1c4b_592_2_alg».proof.Defs
import proofs.«114047_g62732292325833_cont_9to1c4b_592_2_alg».proof.Proof.Gen.Kernel
import proofs.«114047_g62732292325833_cont_9to1c4b_592_2_alg».proof.Proof.Gen.Kernel.Skeleton
import proofs.«114047_g62732292325833_cont_9to1c4b_592_2_alg».proof.Proof.Gen.Kernel.Launch
import proofs.«114047_g62732292325833_cont_9to1c4b_592_2_alg».proof.Proof.Gen.Kernel.Points
import proofs.«114047_g62732292325833_cont_9to1c4b_592_2_alg».proof.Proof.Gen.Kernel.Frame
import proofs.«114047_g62732292325833_cont_9to1c4b_592_2_alg».proof.Proof.Gen.KernelIdeal
import proofs.«114047_g62732292325833_cont_9to1c4b_592_2_alg».proof.Proof.Gen.KernelIdeal.Skeleton
import proofs.«114047_g62732292325833_cont_9to1c4b_592_2_alg».proof.Proof.Gen.KernelIdeal.Launch
import proofs.«114047_g62732292325833_cont_9to1c4b_592_2_alg».proof.Proof.Gen.KernelIdeal.Points
import proofs.«114047_g62732292325833_cont_9to1c4b_592_2_alg».proof.Proof.Gen.KernelIdeal.Frame
import proofs.«114047_g62732292325833_cont_9to1c4b_592_2_alg».proof.Proof.Gen.ReferenceIdeal
import proofs.«114047_g62732292325833_cont_9to1c4b_592_2_alg».proof.Proof.Gen.ReferenceIdeal.Run
import proofs.«114047_g62732292325833_cont_9to1c4b_592_2_alg».proof.Proof.Gen.ReferenceIdeal.Read
import proofs.«114047_g62732292325833_cont_9to1c4b_592_2_alg».proof.Proof.Gen.Pre_finite_inputs
import proofs.«114047_g62732292325833_cont_9to1c4b_592_2_alg».proof.Proof.Chain
import proofs.«114047_g62732292325833_cont_9to1c4b_592_2_alg».proof.Proof.RefValue
import Idealize.ShloMosaic.Adequacy
import Idealize.ShloMosaic.Init

noncomputable section

namespace Cert.Proof

open Idealize.ShloMosaic Idealize.ShloMosaic.ValueIdx Idealize.SL.Sem

/-- The kernel program runs and keeps its arguments, at the word level. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network of the six arguments in their result arrays. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.v11_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
